-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x1024 : Shape := ⟨2, ![1024, 1024]⟩
abbrev S_ : Shape := ⟨0, ![]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  reducesTo_S_S_d : S_.ReducesTo [] S_
  bcast_S_S512x2048 : S_.BroadcastsInDim S512x2048 (![] : Fin 0 → Fin S512x2048.rank)
  reducesTo_S512x2048_S_d0_1 : S512x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_arg15 : FVec F S1024x1024 .f32) (main_arg16 : FVec F S1024 .f32) (main_v67 : IVec S_ 1) : IVec S_ 1 :=
  let main_v68 : FVec F S512 .f32 := Host.absf main_arg14
  let main_cst_26 : FVec F S_ .f32 := constant S_ .f32 0x7F800000#32
  let main_v69 : FVec F S512 .f32 := broadcastInDim S512 ![] bcast_S_S512 main_cst_26
  let main_v70 : IVec S512 1 := cmpf .olt main_v68 main_v69
  let main_c_27 : IVec S_ 1 := constantI S_ 1 1#1
  let main_v71 : IVec S_ 1 := (fun x v => Host.reduce IntOp.andi x v reducesTo_S512_S_d0 h_S_) main_v70 main_c_27
  let main_v72 : IVec S_ 1 := andi main_v67 main_v71
  let main_v73 : FVec F S1024x1024 .f32 := Host.absf main_arg15
  let main_cst_28 : FVec F S_ .f32 := constant S_ .f32 0x7F800000#32
  let main_v74 : FVec F S1024x1024 .f32 := broadcastInDim S1024x1024 ![] bcast_S_S1024x1024 main_cst_28
  let main_v75 : IVec S1024x1024 1 := cmpf .olt main_v73 main_v74
  let main_c_29 : IVec S_ 1 := constantI S_ 1 1#1
  let main_v76 : IVec S_ 1 := (fun x v => Host.reduce IntOp.andi x v reducesTo_S1024x1024_S_d0_1 h_S_) main_v75 main_c_29
  let main_v77 : IVec S_ 1 := andi main_v72 main_v76
  let main_v78 : FVec F S1024 .f32 := Host.absf main_arg16
  let main_cst_30 : FVec F S_ .f32 := constant S_ .f32 0x7F800000#32
  let main_v79 : FVec F S1024 .f32 := broadcastInDim S1024 ![] bcast_S_S1024 main_cst_30
  let main_v80 : IVec S1024 1 := cmpf .olt main_v78 main_v79
  let main_c_31 : IVec S_ 1 := constantI S_ 1 1#1
  let main_v81 : IVec S_ 1 := (fun x v => Host.reduce IntOp.andi x v reducesTo_S1024_S_d0 h_S_) main_v80 main_c_31
  let main_v82 : IVec S_ 1 := andi main_v77 main_v81
  main_v82

def fn_part3 {F : FTy → Type} [FloatOps F] (main_arg11 : FVec F S512x1024 .f32) (main_arg12 : FVec F S1024x1024 .f32) (main_arg13 : FVec F S1024 .f32) (main_arg14 : FVec F S512 .f32) (main_arg15 : FVec F S1024x1024 .f32) (main_arg16 : FVec F S1024 .f32) (main_v47 : IVec S_ 1) (main_v50 : IVec S1024 1) : IVec S_ 1 :=
  let main_c_19 : IVec S_ 1 := constantI S_ 1 1#1
  let main_v51 : IVec S_ 1 := (fun x v => Host.reduce IntOp.andi x v reducesTo_S1024_S_d0 h_S_) main_v50 main_c_19
  let main_v52 : IVec S_ 1 := andi main_v47 main_v51
  let main_v53 : FVec F S512x1024 .f32 := Host.absf main_arg11
  let main_cst_20 : FVec F S_ .f32 := constant S_ .f32 0x7F800000#32
  let main_v54 : FVec F S512x1024 .f32 := broadcastInDim S512x1024 ![] bcast_S_S512x1024 main_cst_20
  let main_v55 : IVec S512x1024 1 := cmpf .olt main_v53 main_v54
  let main_c_21 : IVec S_ 1 := constantI S_ 1 1#1
  let main_v56 : IVec S_ 1 := (fun x v => Host.reduce IntOp.andi x v reducesTo_S512x1024_S_d0_1 h_S_) main_v55 main_c_21
  let main_v57 : IVec S_ 1 := andi main_v52 main_v56
  let main_v58 : FVec F S1024x1024 .f32 := Host.absf main_arg12
  let main_cst_22 : FVec F S_ .f32 := constant S_ .f32 0x7F800000#32
  let main_v59 : FVec F S1024x1024 .f32 := broadcastInDim S1024x1024 ![] bcast_S_S1024x1024 main_cst_22
  let main_v60 : IVec S1024x1024 1 := cmpf .olt main_v58 main_v59
  let main_c_23 : IVec S_ 1 := constantI S_ 1 1#1
  let main_v61 : IVec S_ 1 := (fun x v => Host.reduce IntOp.andi x v reducesTo_S1024x1024_S_d0_1 h_S_) main_v60 main_c_23
  let main_v62 : IVec S_ 1 := andi main_v57 main_v61
  let main_v63 : FVec F S1024 .f32 := Host.absf main_arg13
  let main_cst_24 : FVec F S_ .f32 := constant S_ .f32 0x7F800000#32
  let main_v64 : FVec F S1024 .f32 := broadcastInDim S1024 ![] bcast_S_S1024 main_cst_24
  let main_v65 : IVec S1024 1 := cmpf .olt main_v63 main_v64
  let main_c_25 : IVec S_ 1 := constantI S_ 1 1#1
  let main_v66 : IVec S_ 1 := (fun x v => Host.reduce IntOp.andi x v reducesTo_S1024_S_d0 h_S_) main_v65 main_c_25
  let main_v67 : IVec S_ 1 := andi main_v62 main_v66
  fn_part4 (F := F) main_arg14 main_arg15 main_arg16 main_v67

def fn_part2 {F : FTy → Type} [FloatOps F] (main_arg8 : FVec F S1x1024 .f32) (main_arg9 : FVec F S2048 .f32) (main_arg10 : FVec F S1024 .f32) (main_arg11 : FVec F S512x1024 .f32) (main_arg12 : FVec F S1024x1024 .f32) (main_arg13 : FVec F S1024 .f32) (main_arg14 : FVec F S512 .f32) (main_arg15 : FVec F S1024x1024 .f32) (main_arg16 : FVec F S1024 .f32) (main_v32 : IVec S_ 1) (main_v33 : FVec F S2048x1024 .f32) : IVec S_ 1 :=
  let main_cst_12 : FVec F S_ .f32 := constant S_ .f32 0x7F800000#32
  let main_v34 : FVec F S2048x1024 .f32 := broadcastInDim S2048x1024 ![] bcast_S_S2048x1024 main_cst_12
  let main_v35 : IVec S2048x1024 1 := cmpf .olt main_v33 main_v34
  let main_c_13 : IVec S_ 1 := constantI S_ 1 1#1
  let main_v36 : IVec S_ 1 := (fun x v => Host.reduce IntOp.andi x v reducesTo_S2048x1024_S_d0_1 h_S_) main_v35 main_c_13
  let main_v37 : IVec S_ 1 := andi main_v32 main_v36
  let main_v38 : FVec F S1x1024 .f32 := Host.absf main_arg8
  let main_cst_14 : FVec F S_ .f32 := constant S_ .f32 0x7F800000#32
  let main_v39 : FVec F S1x1024 .f32 := broadcastInDim S1x1024 ![] bcast_S_S1x1024 main_cst_14
  let main_v40 : IVec S1x1024 1 := cmpf .olt main_v38 main_v39
  let main_c_15 : IVec S_ 1 := constantI S_ 1 1#1
  let main_v41 : IVec S_ 1 := (fun x v => Host.reduce IntOp.andi x v reducesTo_S1x1024_S_d0_1 h_S_) main_v40 main_c_15
  let main_v42 : IVec S_ 1 := andi main_v37 main_v41
  let main_v43 : FVec F S2048 .f32 := Host.absf main_arg9
  let main_cst_16 : FVec F S_ .f32 := constant S_ .f32 0x7F800000#32
  let main_v44 : FVec F S2048 .f32 := broadcastInDim S2048 ![] bcast_S_S2048 main_cst_16
  let main_v45 : IVec S2048 1 := cmpf .olt main_v43 main_v44
  let main_c_17 : IVec S_ 1 := constantI S_ 1 1#1
  let main_v46 : IVec S_ 1 := (fun x v => Host.reduce IntOp.andi x v reducesTo_S2048_S_d0 h_S_) main_v45 main_c_17
  let main_v47 : IVec S_ 1 := andi main_v42 main_v46
  let main_v48 : FVec F S1024 .f32 := Host.absf main_arg10
  let main_cst_18 : FVec F S_ .f32 := constant S_ .f32 0x7F800000#32
  let main_v49 : FVec F S1024 .f32 := broadcastInDim S1024 ![] bcast_S_S1024 main_cst_18
  let main_v50 : IVec S1024 1 := cmpf .olt main_v48 main_v49
  fn_part3 (F := F) main_arg11 main_arg12 main_arg13 main_arg14 main_arg15 main_arg16 main_v47 main_v50

def fn_part1 {F : FTy → Type} [FloatOps F] (main_arg4 : FVec F S1024x2048 .f32) (main_arg5 : FVec F S2048x2048 .f32) (main_arg6 : FVec F S2048 .f32) (main_arg7 : FVec F S2048x1024 .f32) (main_arg8 : FVec F S1x1024 .f32) (main_arg9 : FVec F S2048 .f32) (main_arg10 : FVec F S1024 .f32) (main_arg11 : FVec F S512x1024 .f32) (main_arg12 : FVec F S1024x1024 .f32) (main_arg13 : FVec F S1024 .f32) (main_arg14 : FVec F S512 .f32) (main_arg15 : FVec F S1024x1024 .f32) (main_arg16 : FVec F S1024 .f32) (main_v12 : IVec S_ 1) (main_v15 : IVec S512x2048 1) (main_c_5 : IVec S_ 1) : IVec S_ 1 :=
  let main_v16 : IVec S_ 1 := (fun x v => Host.reduce IntOp.andi x v reducesTo_S512x2048_S_d0_1 h_S_) main_v15 main_c_5
  let main_v17 : IVec S_ 1 := andi main_v12 main_v16
  let main_v18 : FVec F S1024x2048 .f32 := Host.absf main_arg4
  let main_cst_6 : FVec F S_ .f32 := constant S_ .f32 0x7F800000#32
  let main_v19 : FVec F S1024x2048 .f32 := broadcastInDim S1024x2048 ![] bcast_S_S1024x2048 main_cst_6
  let main_v20 : IVec S1024x2048 1 := cmpf .olt main_v18 main_v19
  let main_c_7 : IVec S_ 1 := constantI S_ 1 1#1
  let main_v21 : IVec S_ 1 := (fun x v => Host.reduce IntOp.andi x v reducesTo_S1024x2048_S_d0_1 h_S_) main_v20 main_c_7
  let main_v22 : IVec S_ 1 := andi main_v17 main_v21
  let main_v23 : FVec F S2048x2048 .f32 := Host.absf main_arg5
  let main_cst_8 : FVec F S_ .f32 := constant S_ .f32 0x7F800000#32
  let main_v24 : FVec F S2048x2048 .f32 := broadcastInDim S2048x2048 ![] bcast_S_S2048x2048 main_cst_8
  let main_v25 : IVec S2048x2048 1 := cmpf .olt main_v23 main_v24
  let main_c_9 : IVec S_ 1 := constantI S_ 1 1#1
  let main_v26 : IVec S_ 1 := (fun x v => Host.reduce IntOp.andi x v reducesTo_S2048x2048_S_d0_1 h_S_) main_v25 main_c_9
  let main_v27 : IVec S_ 1 := andi main_v22 main_v26
  let main_v28 : FVec F S2048 .f32 := Host.absf main_arg6
  let main_cst_10 : FVec F S_ .f32 := constant S_ .f32 0x7F800000#32
  let main_v29 : FVec F S2048 .f32 := broadcastInDim S2048 ![] bcast_S_S2048 main_cst_10
  let main_v30 : IVec S2048 1 := cmpf .olt main_v28 main_v29
  let main_c_11 : IVec S_ 1 := constantI S_ 1 1#1
  let main_v31 : IVec S_ 1 := (fun x v => Host.reduce IntOp.andi x v reducesTo_S2048_S_d0 h_S_) main_v30 main_c_11
  let main_v32 : IVec S_ 1 := andi main_v27 main_v31
  let main_v33 : FVec F S2048x1024 .f32 := Host.absf main_arg7
  fn_part2 (F := F) main_arg8 main_arg9 main_arg10 main_arg11 main_arg12 main_arg13 main_arg14 main_arg15 main_arg16 main_v32 main_v33

def fn {F : FTy → Type} [FloatOps F] (main_arg0 : FVec F S1024x512 .f32) (main_arg1 : FVec F S1024x1024 .f32) (main_arg2 : FVec F S_ .f32) (main_arg3 : FVec F S512x2048 .f32) (main_arg4 : FVec F S1024x2048 .f32) (main_arg5 : FVec F S2048x2048 .f32) (main_arg6 : FVec F S2048 .f32) (main_arg7 : FVec F S2048x1024 .f32) (main_arg8 : FVec F S1x1024 .f32) (main_arg9 : FVec F S2048 .f32) (main_arg10 : FVec F S1024 .f32) (main_arg11 : FVec F S512x1024 .f32) (main_arg12 : FVec F S1024x1024 .f32) (main_arg13 : FVec F S1024 .f32) (main_arg14 : FVec F S512 .f32) (main_arg15 : FVec F S1024x1024 .f32) (main_arg16 : FVec F S1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S512x2048 .f32 := Host.absf main_arg3
  let main_cst_4 : FVec F S_ .f32 := constant S_ .f32 0x7F800000#32
  let main_v14 : FVec F S512x2048 .f32 := broadcastInDim S512x2048 ![] bcast_S_S512x2048 main_cst_4
  let main_v15 : IVec S512x2048 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_v12 main_v15 main_c_5
-- ==== Kernel.lean ====
abbrev S1024x512 : Shape := ⟨2, ![1024, 512]⟩
abbrev S1024x1024 : Shape := ⟨2, ![1024, 1024]⟩
abbrev S_ : Shape := ⟨0, ![]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1x2048 : Shape := ⟨2, ![1, 2048]⟩
abbrev S128x512 : Shape := ⟨2, ![128, 512]⟩
abbrev S128x1024 : Shape := ⟨2, ![128, 1024]⟩
abbrev S128x2048 : Shape := ⟨2, ![128, 2048]⟩

abbrev nBuf : Space → Nat
  | .hbm => 44
  | .vmem => 23
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S_, .f32⟩
  | .hbm, ⟨3, _⟩ => ⟨S512x2048, .f32⟩
  | .hbm, ⟨4, _⟩ => ⟨S1024x2048, .f32⟩
  | .hbm, ⟨5, _⟩ => ⟨S2048x2048, .f32⟩
  | .hbm, ⟨6, _⟩ => ⟨S2048, .f32⟩
  | .hbm, ⟨7, _⟩ => ⟨S2048x1024, .f32⟩
  | .hbm, ⟨8, _⟩ => ⟨S1x1024, .f32⟩
  | .hbm, ⟨9, _⟩ => ⟨S2048, .f32⟩
  | .hbm, ⟨10, _⟩ => ⟨S1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S512, .f32⟩
  | .hbm, ⟨15, _⟩ => ⟨S1024x1024, .f32⟩
  | .hbm, ⟨16, _⟩ => ⟨S1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024x512, .bf16⟩
  | .hbm, ⟨28, _⟩ => ⟨S512x2048, .bf16⟩
  | .hbm, ⟨29, _⟩ => ⟨S1024x2048, .bf16⟩
  | .hbm, ⟨30, _⟩ => ⟨S2048x2048, .bf16⟩
  | .hbm, ⟨31, _⟩ => ⟨S2048x1024, .bf16⟩
  | .hbm, ⟨32, _⟩ => ⟨S512x1024, .bf16⟩
  | .hbm, ⟨33, _⟩ => ⟨S1024x1024, .bf16⟩
  | .hbm, ⟨34, _⟩ => ⟨S1024x1024, .bf16⟩
  | .hbm, ⟨35, _⟩ => ⟨S1x512, .f32⟩
  | .hbm, ⟨36, _⟩ => ⟨S1x512, .bf16⟩
  | .hbm, ⟨37, _⟩ => ⟨S1x1024, .f32⟩
  | .hbm, ⟨38, _⟩ => ⟨S1x2048, .f32⟩
  | .hbm, ⟨39, _⟩ => ⟨S1x2048, .f32⟩
  | .hbm, ⟨40, _⟩ => ⟨S1x1024, .f32⟩
  | .hbm, ⟨41, _⟩ => ⟨S1x1024, .f32⟩
  | .hbm, ⟨42, _⟩ => ⟨S1024x1024, .f32⟩
  | .hbm, ⟨43, _⟩ => ⟨S1024x1024, .f32⟩
  | .local _ .vmem, ⟨0, _⟩ => ⟨S128x512, .bf16⟩
  | .local _ .vmem, ⟨1, _⟩ => ⟨S128x512, .bf16⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S128x1024, .bf16⟩
  | .local _ .vmem, ⟨6, _⟩ => ⟨S1x512, .bf16⟩
  | .local _ .vmem, ⟨7, _⟩ => ⟨S1x1024, .f32⟩
  | .local _ .vmem, ⟨8, _⟩ => ⟨S512x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x1024, .bf16⟩
  | .local _ .vmem, ⟨13, _⟩ => ⟨S1x2048, .f32⟩
  | .local _ .vmem, ⟨14, _⟩ => ⟨S1x1024, .f32⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S1x1024 : S_.BroadcastsInDim S1x1024 (![] : Fin 0 → Fin S1x1024.rank)
  bitsLt_bf16_f32 : FTy.bits .bf16 < FTy.bits .f32
  shapeCasts_S512_S1x512 : S512.ShapeCasts S1x512
  shapeCasts_S1024_S1x1024 : S1024.ShapeCasts S1x1024
  shapeCasts_S2048_S1x2048 : S2048.ShapeCasts S1x2048
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S128x512_S512x2048_S128x2048_1_0_0_1_n_n_wf : DotDims.WF S128x512 S512x2048 S128x2048 [1] [0] [0] [1] [] []
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .bf16 = 32 ∨ (Rect.block (s := S1024x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .bf16 = 32 ∨ (Rect.block (s := S1024x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .bf16 = 32 ∨ (Rect.block (s := S1x512) S1x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S1024x1024.size a
  hwx0_16 : ∀ i : grid0.Coords, EltTy.bits .f32 = 32 ∨ (Rect.block (s := S1024x1024) S128x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x1024.size a ≤ S1024x1024.size a
  hwx0_17 : ∀ i : grid0.Coords, EltTy.bits .f32 = 32 ∨ (Rect.block (s := S1024x1024) S128x1024.size (cc0_transform_17 i) (hinb0_17 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v8) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23_0) S128x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v23_1) S128x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x1024 : Shape := ⟨2, ![1024, 1024]⟩
abbrev S_ : Shape := ⟨0, ![]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S2048x1024 : Shape := ⟨2, ![2048, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1x2048 : Shape := ⟨2, ![1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1024, .f32⟩
  | .hbm, ⟨2, _⟩ => ⟨S_, .f32⟩
  | .hbm, ⟨3, _⟩ => ⟨S512x2048, .f32⟩
  | .hbm, ⟨4, _⟩ => ⟨S1024x2048, .f32⟩
  | .hbm, ⟨5, _⟩ => ⟨S2048x2048, .f32⟩
  | .hbm, ⟨6, _⟩ => ⟨S2048, .f32⟩
  | .hbm, ⟨7, _⟩ => ⟨S2048x1024, .f32⟩
  | .hbm, ⟨8, _⟩ => ⟨S1x1024, .f32⟩
  | .hbm, ⟨9, _⟩ => ⟨S2048, .f32⟩
  | .hbm, ⟨10, _⟩ => ⟨S1024, .f32⟩
  | .hbm, ⟨11, _⟩ => ⟨S512x1024, .f32⟩
  | .hbm, ⟨12, _⟩ => ⟨S1024x1024, .f32⟩
  | .hbm, ⟨13, _⟩ => ⟨S1024, .f32⟩
  | .hbm, ⟨14, _⟩ => ⟨S512, .f32⟩
  | .hbm, ⟨15, _⟩ => ⟨S1024x1024, .f32⟩
  | .hbm, ⟨16, _⟩ => ⟨S1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x512, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x2048, .f32⟩
  | .hbm, ⟨26, _⟩ => ⟨S1x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x1024, .f32⟩
  | .hbm, ⟨50, _⟩ => ⟨S1x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S1024x1024, .f32⟩
  | .hbm, ⟨74, _⟩ => ⟨S_, .f32⟩
  | .hbm, ⟨75, _⟩ => ⟨S1024x1024, .f32⟩
  | .hbm, ⟨76, _⟩ => ⟨S1024x1024, .f32⟩
  | .hbm, ⟨77, _⟩ => ⟨S1024x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1024x1024, .f32⟩
  | .hbm, ⟨82, _⟩ => ⟨S1024x1024, .f32⟩
  | .hbm, ⟨83, _⟩ => ⟨S1024x1024, .f32⟩
  | .hbm, ⟨84, _⟩ => ⟨S1x1024, .f32⟩
  | .hbm, ⟨85, _⟩ => ⟨S1024x1024, .f32⟩
  | .hbm, ⟨86, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1x1024 : S_.BroadcastsInDim S1x1024 (![] : Fin 0 → Fin S1x1024.rank)
  bcast_S_S1024x1024 : S_.BroadcastsInDim S1024x1024 (![] : Fin 0 → Fin S1024x1024.rank)
  dot_S1024x512_S512x2048_S1024x2048_1_0_0_1_n_n_wf : DotDims.WF S1024x512 S512x2048 S1024x2048 [1] [0] [0] [1] [] []
  dot_S1024x1024_S1024x2048_S1024x2048_1_0_0_1_n_n_wf : DotDims.WF S1024x1024 S1024x2048 S1024x2048 [1] [0] [0] [1] [] []
  dot_S1024x2048_S2048x2048_S1024x2048_1_0_0_1_n_n_wf : DotDims.WF S1024x2048 S2048x2048 S1024x2048 [1] [0] [0] [1] [] []
  dot_S1024x2048_S2048x1024_S1024x1024_1_0_0_1_n_n_wf : DotDims.WF S1024x2048 S2048x1024 S1024x1024 [1] [0] [0] [1] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.LibPlainDot.lean ====
/-
  A plain matrix product read at an index.

  For the dimension numbers of an M×K by K×N product (contract the left operand's axis 1 with the right
  operand's axis 0, no batch axis) the left operand is read at (row, k) and the right at (k, column), so the
  sum over the one-axis contraction index is the sum over k : Fin K of the products of those two entries.
  At the ideal instance a matrix product into the zero accumulator is exactly that sum, and so is the host's
  plain product.  General in M, K, N.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable (M K N : Nat)

/-- The left operand's row coordinate is the result's row. -/
theorem lhs_row (j : (⟨2, ![M, N]⟩ : Shape).Idx) (q : (DotDims.plain M K N).contr.Idx) :
    ((DotDims.plain M K N).lhsIdx j q 0).val = (j 0).val := rfl

/-- The left operand's column coordinate is the contraction position. -/
theorem lhs_col (j : (⟨2, ![M, N]⟩ : Shape).Idx) (q : (DotDims.plain M K N).contr.Idx) :
    ((DotDims.plain M K N).lhsIdx j q 1).val = (q ⟨0, (Nat.one_pos : 0 < 1)⟩).val := rfl

/-- The right operand's row coordinate is the contraction position. -/
theorem rhs_row (j : (⟨2, ![M, N]⟩ : Shape).Idx) (q : (DotDims.plain M K N).contr.Idx) :
    ((DotDims.plain M K N).rhsIdx j q 0).val = (q ⟨0, (Nat.one_pos : 0 < 1)⟩).val := rfl

/-- The right operand's column coordinate is the result's column. -/
theorem rhs_col (j : (⟨2, ![M, N]⟩ : Shape).Idx) (q : (DotDims.plain M K N).contr.Idx) :
    ((DotDims.plain M K N).rhsIdx j q 1).val = (j 1).val := rfl

/-- Any function of the two operand indices, summed over the contraction index, is its sum over k : Fin K at
    the entries (row, k) and (k, column). -/
theorem sum_contr (f : (⟨2, ![M, K]⟩ : Shape).Idx → (⟨2, ![K, N]⟩ : Shape).Idx → EReal)
    (j : (⟨2, ![M, N]⟩ : Shape).Idx) :
    ∑ q : (DotDims.plain M K N).contr.Idx, f ((DotDims.plain M K N).lhsIdx j q) ((DotDims.plain M K N).rhsIdx j q)
      = ∑ k : Fin K, f (ix2 (j 0 : Fin M) k) (ix2 k (j 1 : Fin N)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (j 0 : Fin M) k := funext fun a => Fin.ext (by
    match a with
    | ⟨0, _⟩ => exact lhs_row M K N _ _
    | ⟨1, _⟩ => exact (lhs_col M K N _ _).trans hk)
  have er : (DotDims.plain M K N).rhsIdx j ((contrEquiv1 (DotDims.plain M K N) K rfl rfl).symm k)
      = ix2 k (j 1 : Fin N) := funext fun a => Fin.ext (by
    match a with
    | ⟨0, _⟩ => exact (rhs_row M K N _ _).trans hk
    | ⟨1, _⟩ => exact rhs_col M K N _ _)
  exact congrArg₂ f el er

/-- A matrix product into the zero accumulator, at the ideal instance, read at an index: the sum over k of
    left (row, k) times right (k, column). -/
theorem matmul_zero_apply {φ₁ φ₂ : FTy} (prec : Option ContractPrecision)
    (a : FVec Ideal ⟨2, ![M, K]⟩ φ₁) (b : FVec Ideal ⟨2, ![K, N]⟩ φ₂) (j : (⟨2, ![M, N]⟩ : Shape).Idx) :
    FloatOps.matmul (DotDims.plain M K N) prec a b (constant ⟨2, ![M, N]⟩ .f32 0x00000000#32) j
      = ∑ k : Fin K, a (ix2 (j 0 : Fin M) k) * b (ix2 k (j 1 : Fin N)) :=
  (Ideal.matmul_constant_zero_apply (DotDims.plain M K N) prec a b j).trans
    (sum_contr M K N (fun l r => a l * b r) j)

/-- The host's plain matrix product, at the ideal instance, read at an index: the same sum, with no accumulator. -/
theorem dotGeneral_apply {φ₁ φ₂ : FTy} (prec : Option ContractPrecision)
    (a : FVec Ideal ⟨2, ![M, K]⟩ φ₁) (b : FVec Ideal ⟨2, ![K, N]⟩ φ₂) (j : (⟨2, ![M, N]⟩ : Shape).Idx) :
    Host.dotGeneral (DotDims.plain M K N) prec a b j
      = ∑ k : Fin K, a (ix2 (j 0 : Fin M) k) * b (ix2 k (j 1 : Fin N)) := by
  simp only [Host.dotGeneral]
  exact (Ideal.dotGeneral_apply (DotDims.plain M K N) prec _ a b j).trans
    (sum_contr M K N (fun l r => a l * b r) j)

end Cert.Lib.PlainDot

end
-- ==== Proof.LibRowOps.lean ====
/-
  Two operations of a row-blocked body read at an entry.

  * A 1×b row broadcast down a rows: the entry at (p, j) is the row's entry j, whatever p; the same for the host's
    broadcast in place, for a vector sent into a row, for a scalar sent anywhere, and for a vector reshaped to a row.
  * The vector hyperbolic tangent and logistic act entry by entry; at the ideal instance they are the
    extended reals' functions.
  * `row`, `entries`, `vec`: a rank-2 array by its row, and by row and column; a rank-1 array by its index.
  General in the extents.
-/
import Idealize.ShloMosaic.Lib.Pipeline.Value
import Idealize.ShloMosaic.Lib.ValueIdx

noncomputable section

namespace Cert.Lib.RowOps

open Idealize.ShloMosaic Idealize.ShloMosaic.ValueIdx

/-- A 1×b row broadcast to a×b, read at (p, j): the row at j. -/
theorem broadcastTo_row_apply {α : Type} {a b : Nat} (x : (⟨2, ![1, b]⟩ : Shape).Idx → α)
    (hb : (⟨2, ![1, b]⟩ : Shape).Broadcasts ⟨2, ![a, b]⟩) (p : Fin a) (j : Fin b) :
    broadcastTo ⟨2, ![a, b]⟩ x hb (ix2 p j) = x (ix2 (0 : Fin 1) j) := by
  refine broadcastTo_apply x hb (ix2 p j) (ix2 (0 : Fin 1) j) (fun c => ?_)
  match c with
  | ⟨0, _⟩ =>
    show (0 : Nat) = if (1 : Nat) = 1 then 0 else _
    rw [if_pos rfl]
  | ⟨1, _⟩ =>
    show j.val = if b = 1 then 0 else j.val
    by_cases hb1 : b = 1
    · rw [if_pos hb1]; have := j.isLt; omega
    · rw [if_neg hb1]

/-- A 1×b row broadcast in place (axes 0 and 1 kept) to a×b, read at (p, j): the row at j. -/
theorem broadcastInDim_rows_apply {α : Type} {a b : Nat} (x : (⟨2, ![1, b]⟩ : Shape).Idx → α)
    (hb : (⟨2, ![1, b]⟩ : Shape).BroadcastsInDim ⟨2, ![a, b]⟩ ![0, 1]) (p : Fin a) (j : Fin b) :
    broadcastInDim ⟨2, ![a, b]⟩ ![0, 1] hb x (ix2 p j) = x (ix2 (0 : Fin 1) j) := by
  refine broadcastInDim_apply ![0, 1] hb x (ix2 p j) (ix2 (0 : Fin 1) j) (fun c => ?_)
  match c with
  | ⟨0, _⟩ =>
    show (0 : Nat) = if (1 : Nat) = 1 then 0 else _
    rw [if_pos rfl]
  | ⟨1, _⟩ =>
    show j.val = if b = 1 then 0 else j.val
    by_cases hb1 : b = 1
    · rw [if_pos hb1]; have := j.isLt; omega
    · rw [if_neg hb1]

/-- A length-b vector broadcast into a 1×b row (its axis sent to axis 1), read at (p, j): the vector at j. -/
theorem broadcastInDim_vec_apply {α : Type} {b : Nat} (x : (⟨1, ![b]⟩ : Shape).Idx → α)
    (hb : (⟨1, ![b]⟩ : Shape).BroadcastsInDim ⟨2, ![1, b]⟩ ![1]) (p : Fin 1) (j : Fin b) :
    broadcastInDim ⟨2, ![1, b]⟩ ![1] hb x (ix2 p j) = x (ix1 j) := by
  refine broadcastInDim_apply ![1] hb x (ix2 p j) (ix1 j) (fun c => ?_)
  match c with
  | ⟨0, _⟩ =>
    show j.val = if b = 1 then 0 else j.val
    by_cases hb1 : b = 1
    · rw [if_pos hb1]; have := j.isLt; omega
    · rw [if_neg hb1]

/-- A scalar broadcast to any shape, read anywhere: the scalar. -/
theorem broadcastInDim_scalar_apply {α : Type} {t : Shape} (x : (⟨0, ![]⟩ : Shape).Idx → α)
    (hb : (⟨0, ![]⟩ : Shape).BroadcastsInDim t ![]) (i : t.Idx) :
    broadcastInDim t ![] hb x i = x ix0 :=
  broadcastInDim_apply ![] hb x i ix0 (fun a => a.elim0)

/-- The same as an equation between arrays: a scalar broadcast is the constant array. -/
theorem broadcastInDim_scalar {α : Type} {t : Shape} (x : (⟨0, ![]⟩ : Shape).Idx → α)
    (hb : (⟨0, ![]⟩ : Shape).BroadcastsInDim t ![]) :
    broadcastInDim t ![] hb x = fun _ => x ix0 :=
  funext fun i => broadcastInDim_scalar_apply x hb i

/-- A length-b vector reshaped to a 1×b row, read at (p, j): the vector at j. -/
theorem shapeCast_vec_row_apply {α : Type} {b : Nat} (v : (⟨1, ![b]⟩ : Shape).Idx → α)
    (h : (⟨1, ![b]⟩ : Shape).ShapeCasts ⟨2, ![1, b]⟩) (p : Fin 1) (j : Fin b) :
    shapeCast ⟨2, ![1, b]⟩ v h (ix2 p j) = v (ix1 j) :=
  (shapeCast_addUnit_apply ![b] v h (ix2 p j)).trans
    (congrArg v (funext fun a => by match a with | ⟨0, _⟩ => rfl))

/-- Row p of an a×b array, as a function of the column. -/
abbrev row {α : Type} {a b : Nat} (v : (⟨2, ![a, b]⟩ : Shape).Idx → α) (p : Fin a) : Fin b → α := fun k => v (ix2 p k)

/-- A length-n vector as a function of its index. -/
abbrev vec {α : Type} {n : Nat} (v : (⟨1, ![n]⟩ : Shape).Idx → α) : Fin n → α := fun k => v (ix1 k)

/-- An a×b array as a function of row and column. -/
abbrev entries {α : Type} {a b : Nat} (v : (⟨2, ![a, b]⟩ : Shape).Idx → α) : Fin a → Fin b → α := fun k j => v (ix2 k j)

/-- The vector hyperbolic tangent at an entry, at the ideal instance. -/
theorem tanh_apply {s : Shape} {φ : FTy} (v : FVec Ideal s φ) (i : s.Idx) : tanh v i = Ideal.tanh (v i) := rfl

/-- The vector logistic at an entry, at the ideal instance. -/
theorem logistic_apply {s : Shape} {φ : FTy} (v : FVec Ideal s φ) (i : s.Idx) : logistic v i = Ideal.logistic (v i) := rfl

/-! The host's entry-by-entry maps, at the ideal instance. -/
theorem host_tanh_apply {s : Shape} {φ : FTy} (v : FVec Ideal s φ) (i : s.Idx) : Host.tanh v i = Ideal.tanh (v i) := rfl
theorem host_exp_apply {s : Shape} {φ : FTy} (v : FVec Ideal s φ) (i : s.Idx) : Host.exp v i = Ideal.exp (v i) := rfl
theorem host_negf_apply {s : Shape} {φ : FTy} (v : FVec Ideal s φ) (i : s.Idx) : Host.negf v i = -(v i) := rfl
theorem host_divf_apply {s : Shape} {φ : FTy} (a b : FVec Ideal s φ) (i : s.Idx) :
    Host.divf a b i = Ideal.div (a i) (b i) := rfl

end Cert.Lib.RowOps

end
-- ==== Proof.CellSpec.lean ====
/-
  The cell, one batch row at a time, over the extended reals.

  Row r of the new state depends on row r of the inputs, of the previous state and of the recurrent mask, and
  on the whole weight matrices:
    a1 j   = s ((Σ_k (x k · xm k) · W k j + b j) + Σ_k (h k · hm k) · R k j)        first hidden layer
    a2 j   = s (Σ_k a1 k · B k j + bb j)                                              second hidden layer
    cand u = Σ_k a2 k · O k u + rb u                                                  candidate state
    gate u = logistic ((Σ_k x k · G k u + Σ_k h k · GR k u) + gb u)
    new u  = h u · gate u + (cand u · (1 − gate u)) · (1 − d u)                       d: the time gate
    out u  = new u · om u
  with s z = 1.7159 · tanh (0.6666667 · z), the two factors kept as their float words (both programs spell the
  same words, so their values are never needed).  The "1" of the two differences is likewise kept as its word.
-/
import Idealize.ShloMosaic.PureOps.Ideal

noncomputable section

open scoped BigOperators

namespace Cert.Cell

open Idealize.ShloMosaic

/-- The float word of 1.0 denotes the real number one. -/
theorem word_one : Ideal.ofBits .f32 0x3F800000#32 = 1 := by
  simp [Ideal.ofBits, Ideal.ieee, -EReal.coe_mul]; norm_num

/-- 1 / (1 + e^(−z)) with the two ones spelt as the word of 1.0 is the logistic function. -/
theorem logistic_of_words (z : EReal) :
    Ideal.div (Ideal.ofBits .f32 0x3F800000#32) (Ideal.ofBits .f32 0x3F800000#32 + Ideal.exp (-z)) = Ideal.logistic z := by
  rw [word_one]; rfl

/-- The scaled hyperbolic tangent, its two factors as float words. -/
def squash (z : EReal) : EReal :=
  Ideal.ofBits .f32 0x3FDBA29C#32 * Ideal.tanh (Ideal.ofBits .f32 0x3F2AAAAB#32 * z)

section Row

variable (x xm : Fin 512 → EReal) (h hm : Fin 1024 → EReal)
  (W : Fin 512 → Fin 2048 → EReal) (b : Fin 2048 → EReal) (R : Fin 1024 → Fin 2048 → EReal)
  (B : Fin 2048 → Fin 2048 → EReal) (bb : Fin 2048 → EReal)
  (O : Fin 2048 → Fin 1024 → EReal) (rb : Fin 1024 → EReal)
  (G : Fin 512 → Fin 1024 → EReal) (GR : Fin 1024 → Fin 1024 → EReal) (gb : Fin 1024 → EReal)
  (d om : Fin 1024 → EReal)

/-- First hidden layer: masked input and masked state through their weights, the bias between them. -/
def hidden1 (j : Fin 2048) : EReal :=
  squash (((∑ k : Fin 512, (x k * xm k) * W k j) + b j) + ∑ k : Fin 1024, (h k * hm k) * R k j)

/-- Second hidden layer. -/
def hidden2 (j : Fin 2048) : EReal :=
  squash ((∑ k : Fin 2048, hidden1 x xm h hm W b R k * B k j) + bb j)

/-- Candidate state. -/
def cand (u : Fin 1024) : EReal :=
  (∑ k : Fin 2048, hidden2 x xm h hm W b R B bb k * O k u) + rb u

/-- Update gate, from the unmasked input and state. -/
def gate (u : Fin 1024) : EReal :=
  Ideal.logistic (((∑ k : Fin 512, x k * G k u) + ∑ k : Fin 1024, h k * GR k u) + gb u)

/-- New state: the gate keeps the old state, the rest takes the candidate damped by the time gate. -/
def newState (u : Fin 1024) : EReal :=
  h u * gate x h G GR gb u
    + (cand x xm h hm W b R B bb O rb u * (Ideal.ofBits .f32 0x3F800000#32 - gate x h G GR gb u))
      * (Ideal.ofBits .f32 0x3F800000#32 - d u)

/-- Output: the new state under the output mask. -/
def output (u : Fin 1024) : EReal :=
  newState x xm h hm W b R B bb O rb G GR gb d u * om u

end Row

end Cert.Cell

end
-- ==== Proof.KernelEntry.lean ====
/-
  One entry of what the kernel's body computes, at the ideal instance.

  The body works on a block of 128 batch rows.  Entry (p, u) of its two results depends only on row p of the
  three streamed blocks (inputs, previous state, recurrent mask) and on the resident weights, and is the
  cell's row formula (CellSpec) of those rows: every matrix product into the zero accumulator is the sum over
  the shared axis, a 1×n bias or mask broadcast down the rows is read at its column, the changes of float
  format are the identity, and the remaining operations act entry by entry.
-/
import proofs.«170932_j4294967296464_1_alg».proof.Proof.Gen.KernelIdeal.Skeleton
import proofs.«170932_j4294967296464_1_alg».proof.Proof.LibPlainDot
import proofs.«170932_j4294967296464_1_alg».proof.Proof.LibRowOps
import proofs.«170932_j4294967296464_1_alg».proof.Proof.CellSpec

noncomputable section

open scoped BigOperators

namespace Cert.KernelIdeal.Entry

open Cert.KernelIdeal Cert.KernelIdeal.Gen Idealize.ShloMosaic Idealize.ShloMosaic.ValueIdx
open Cert.Lib Cert.Lib.RowOps

/-! Each printed record of dimension numbers is the plain M×K by K×N product's. -/
theorem dims_x_W : dot_S128x512_S512x2048_S128x2048_1_0_0_1_n_n = DotDims.plain 128 512 2048 := rfl
theorem dims_h_R : dot_S128x1024_S1024x2048_S128x2048_1_0_0_1_n_n = DotDims.plain 128 1024 2048 := rfl
theorem dims_a_B : dot_S128x2048_S2048x2048_S128x2048_1_0_0_1_n_n = DotDims.plain 128 2048 2048 := rfl
theorem dims_a_O : dot_S128x2048_S2048x1024_S128x1024_1_0_0_1_n_n = DotDims.plain 128 2048 1024 := rfl
theorem dims_x_G : dot_S128x512_S512x1024_S128x1024_1_0_0_1_n_n = DotDims.plain 128 512 1024 := rfl
theorem dims_h_GR : dot_S128x1024_S1024x1024_S128x1024_1_0_0_1_n_n = DotDims.plain 128 1024 1024 := rfl

variable (x0 : Vec Ideal S128x512 .bf16) (x1 : Vec Ideal S128x1024 .f32) (x2 : Vec Ideal S128x1024 .bf16)
  (x3 : Vec Ideal S1x512 .bf16) (x4 : Vec Ideal S1x1024 .f32) (x5 : Vec Ideal S512x2048 .bf16)
  (x6 : Vec Ideal S1024x2048 .bf16) (x7 : Vec Ideal S2048x2048 .bf16) (x8 : Vec Ideal S1x2048 .f32)
  (x9 : Vec Ideal S2048x1024 .bf16) (x10 : Vec Ideal S1x2048 .f32) (x11 : Vec Ideal S1x1024 .f32)
  (x12 : Vec Ideal S512x1024 .bf16) (x13 : Vec Ideal S1024x1024 .bf16) (x14 x15 : Vec Ideal S1x1024 .f32)

/-- The second layer before its activation, at (p, j): the first layer's row through the second weights, plus
    the second bias. -/
theorem pre2_entry (p : Fin 128) (j : Fin 2048) :
    k0_pay3 (F := Ideal) x0 x1 x2 x3 x5 x10 x6 x7 x8 (ix2 p j)
      = (∑ k : Fin 2048, Cell.hidden1 (row x0 p) (row x3 0) (row x1 p) (row x2 p) (entries x5) (row x10 0) (entries x6) k
            * x7 (ix2 k j)) + x8 (ix2 (0 : Fin 1) j) := by
  unfold k0_pay3 k0_pay2 k0_pay1
  simp only [addf_apply, mulf_apply, truncf_apply, broadcast_apply, shapeCast_self, broadcastTo_row_apply, tanh_apply,
    dims_x_W, dims_h_R, dims_a_B, PlainDot.matmul_zero_apply]
  rfl

/-- The new state at (p, u): the cell's row formula of row p of the streamed blocks and the resident weights. -/
theorem new_entry (p : Fin 128) (u : Fin 1024) :
    k0_pay4 (F := Ideal) (k0_pay1 x0) x1 (k0_pay2 x1) (k0_pay3 x0 x1 x2 x3 x5 x10 x6 x7 x8)
        (Scalar.ofBits .f32 0x3F2AAAAB#32) x9 x11 x12 x13 x14 x15 (ix2 p u)
      = Cell.newState (row x0 p) (row x3 0) (row x1 p) (row x2 p) (entries x5) (row x10 0) (entries x6)
          (entries x7) (row x8 0) (entries x9) (row x11 0) (entries x12) (entries x13) (row x14 0) (row x15 0) u := by
  unfold k0_pay4
  simp only [addf_apply, mulf_apply, subf_apply, truncf_apply, broadcast_apply, shapeCast_self, broadcastTo_row_apply,
    tanh_apply, logistic_apply, dims_a_O, dims_x_G, dims_h_GR, PlainDot.matmul_zero_apply, pre2_entry, k0_pay1, k0_pay2]
  rfl

/-- The output at (p, u): the new state under the output mask's column u. -/
theorem out_entry (p : Fin 128) (u : Fin 1024) :
    k0_pay5 (F := Ideal) (k0_pay1 x0) x1 (k0_pay2 x1) (k0_pay3 x0 x1 x2 x3 x5 x10 x6 x7 x8)
        (Scalar.ofBits .f32 0x3F2AAAAB#32) x9 x11 x12 x13 x14 x15 x4 (ix2 p u)
      = Cell.output (row x0 p) (row x3 0) (row x1 p) (row x2 p) (entries x5) (row x10 0) (entries x6)
          (entries x7) (row x8 0) (entries x9) (row x11 0) (entries x12) (entries x13) (row x14 0) (row x15 0)
          (row x4 0) u := by
  unfold k0_pay5
  simp only [mulf_apply, shapeCast_self, broadcastTo_row_apply, new_entry]
  rfl

end Cert.KernelIdeal.Entry

end
-- ==== Proof.KernelArrays.lean ====
/-
  From the kernel's blocks to its two result arrays, at the ideal instance.

  The grid has eight points; point t handles batch rows 128·t … 128·t + 127.  The three streamed windows
  (inputs, previous state, recurrent mask) and the two result windows all take block (t, 0); the thirteen
  resident windows take block (0, 0), which is their whole array.  So what point t writes back is rows
  128·t … of one whole-array function — the cell's row formula (CellSpec) at each row of the arrays the region
  finds —, the eight row-blocks cover the 1024 rows, and each result array ends as that function.
-/
import proofs.«170932_j4294967296464_1_alg».proof.Proof.Gen.KernelIdeal.Value
import proofs.«170932_j4294967296464_1_alg».proof.Proof.KernelEntry

noncomputable section

namespace Cert.KernelIdeal.Arrays

open Cert.KernelIdeal Cert.KernelIdeal.Gen Cert.KernelIdeal.Value
open Idealize.ShloMosaic Idealize.ShloMosaic.TcCoe Idealize.SL.Sem Idealize.ShloMosaic.ValueIdx
open Cert.Lib.RowOps

variable (m : (ℓ : Loc nD τ sig) → Buf (Elt Ideal) ℓ) (ρ : Dev nD → PrngReg)

/-! The array each input window stages, as the region finds it. -/
abbrev inputsArr (c : Dev nD) : S1024x512.Idx → EReal := V m c main_v8
abbrev stateArr (c : Dev nD) : S1024x1024.Idx → EReal := V m c main_arg1
abbrev recMaskArr (c : Dev nD) : S1024x1024.Idx → EReal := V m c main_v15
abbrev inMaskArr (c : Dev nD) : S1x512.Idx → EReal := V m c main_v17
abbrev outMaskArr (c : Dev nD) : S1x1024.Idx → EReal := V m c main_v18
abbrev inWArr (c : Dev nD) : S512x2048.Idx → EReal := V m c main_v9
abbrev recWArr (c : Dev nD) : S1024x2048.Idx → EReal := V m c main_v10
abbrev hidWArr (c : Dev nD) : S2048x2048.Idx → EReal := V m c main_v11
abbrev hidBiasArr (c : Dev nD) : S1x2048.Idx → EReal := V m c main_v20
abbrev outWArr (c : Dev nD) : S2048x1024.Idx → EReal := V m c main_v12
abbrev inBiasArr (c : Dev nD) : S1x2048.Idx → EReal := V m c main_v19
abbrev candBiasArr (c : Dev nD) : S1x1024.Idx → EReal := V m c main_v21
abbrev gateWArr (c : Dev nD) : S512x1024.Idx → EReal := V m c main_v13
abbrev gateRecWArr (c : Dev nD) : S1024x1024.Idx → EReal := V m c main_v14
abbrev gateBiasArr (c : Dev nD) : S1x1024.Idx → EReal := V m c main_v22
abbrev timeGateArr (c : Dev nD) : S1x1024.Idx → EReal := V m c main_v7

/-- The new-state array: the cell's row formula at each row of the staged arrays. -/
def newArr (c : Dev nD) : S1024x1024.Idx → EReal := fun i =>
  Cell.newState (row (inputsArr m c) (i 0 : Fin 1024)) (row (inMaskArr m c) 0) (row (stateArr m c) (i 0 : Fin 1024))
    (row (recMaskArr m c) (i 0 : Fin 1024)) (entries (inWArr m c)) (row (inBiasArr m c) 0) (entries (recWArr m c))
    (entries (hidWArr m c)) (row (hidBiasArr m c) 0) (entries (outWArr m c)) (row (candBiasArr m c) 0)
    (entries (gateWArr m c)) (entries (gateRecWArr m c)) (row (gateBiasArr m c) 0) (row (timeGateArr m c) 0)
    (i 1 : Fin 1024)

/-- The output array: the new state under the output mask. -/
def outArr (c : Dev nD) : S1024x1024.Idx → EReal := fun i =>
  Cell.output (row (inputsArr m c) (i 0 : Fin 1024)) (row (inMaskArr m c) 0) (row (stateArr m c) (i 0 : Fin 1024))
    (row (recMaskArr m c) (i 0 : Fin 1024)) (entries (inWArr m c)) (row (inBiasArr m c) 0) (entries (recWArr m c))
    (entries (hidWArr m c)) (row (hidBiasArr m c) 0) (entries (outWArr m c)) (row (candBiasArr m c) 0)
    (entries (gateWArr m c)) (entries (gateRecWArr m c)) (row (gateBiasArr m c) 0) (row (timeGateArr m c) 0)
    (row (outMaskArr m c) 0) (i 1 : Fin 1024)

/-- The windows' block indices over the grid: streamed and result windows at (t, 0), resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- Every one of the eight row-blocks is some point's. -/
theorem point_of_block : ∀ q : Fin 8, ∃ t : Fin cfg0.N, t.val = q.val :=
  (by decide +kernel : ∀ q : Fin 8, ∃ t : Fin grid0.N, t.val = q.val)

/-! ## The streamed blocks: rows 128·t + p of their arrays -/

/-- Row p of the inputs block at point t is row 128·t + p of the inputs array. -/
theorem inputs_rows (c : Dev nD) (t : Fin cfg0.N) (p : Fin 128) (r : Fin 1024) (hr : r.val = t.val * 128 + p.val) :
    row (iblk m c 0 t : S128x512.Idx → EReal) p = row (inputsArr m c) r := by
  funext k
  show inputsArr m c (((cfg0.win 0).blk t).view.emb (ix2 p k)) = inputsArr m c (ix2 r k)
  refine congrArg _ (funext fun a => Fin.ext ?_)
  have hf := idx_facts t
  match a with
  | ⟨0, _⟩ => show win0_0.index t (0 : Fin 2) * 128 + 1 * p.val = r.val; omega
  | ⟨1, _⟩ => show win0_0.index t (1 : Fin 2) * 512 + 1 * k.val = k.val; omega

/-- Row p of the previous-state block at point t is row 128·t + p of the state array. -/
theorem state_rows (c : Dev nD) (t : Fin cfg0.N) (p : Fin 128) (r : Fin 1024) (hr : r.val = t.val * 128 + p.val) :
    row (iblk m c 1 t : S128x1024.Idx → EReal) p = row (stateArr m c) r := by
  funext k
  show stateArr m c (((cfg0.win 1).blk t).view.emb (ix2 p k)) = stateArr m c (ix2 r k)
  refine congrArg _ (funext fun a => Fin.ext ?_)
  have hf := idx_facts t
  match a with
  | ⟨0, _⟩ => show win0_1.index t (0 : Fin 2) * 128 + 1 * p.val = r.val; omega
  | ⟨1, _⟩ => show win0_1.index t (1 : Fin 2) * 1024 + 1 * k.val = k.val; omega

/-- Row p of the recurrent-mask block at point t is row 128·t + p of the mask array. -/
theorem recMask_rows (c : Dev nD) (t : Fin cfg0.N) (p : Fin 128) (r : Fin 1024) (hr : r.val = t.val * 128 + p.val) :
    row (iblk m c 2 t : S128x1024.Idx → EReal) p = row (recMaskArr m c) r := by
  funext k
  show recMaskArr m c (((cfg0.win 2).blk t).view.emb (ix2 p k)) = recMaskArr m c (ix2 r k)
  refine congrArg _ (funext fun a => Fin.ext ?_)
  have hf := idx_facts t
  match a with
  | ⟨0, _⟩ => show win0_2.index t (0 : Fin 2) * 128 + 1 * p.val = r.val; omega
  | ⟨1, _⟩ => show win0_2.index t (1 : Fin 2) * 1024 + 1 * k.val = k.val; omega

/-! ## The resident blocks: each is its whole array -/

theorem inMask_whole (c : Dev nD) (t : Fin cfg0.N) : (iblk m c 3 t : S1x512.Idx → EReal) = inMaskArr m c := by
  funext y
  show inMaskArr m c (((cfg0.win 3).blk t).view.emb y) = inMaskArr m c y
  refine congrArg _ (funext fun a => Fin.ext ?_)
  have hf := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem outMask_whole (c : Dev nD) (t : Fin cfg0.N) : (iblk m c 4 t : S1x1024.Idx → EReal) = outMaskArr m c := by
  funext y
  show outMaskArr m c (((cfg0.win 4).blk t).view.emb y) = outMaskArr m c y
  refine congrArg _ (funext fun a => Fin.ext ?_)
  have hf := idx_facts t
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem inW_whole (c : Dev nD) (t : Fin cfg0.N) : (iblk m c 5 t : S512x2048.Idx → EReal) = inWArr m c := by
  funext y
  show inWArr m c (((cfg0.win 5).blk t).view.emb y) = inWArr m c y
  refine congrArg _ (funext fun a => Fin.ext ?_)
  have hf := idx_facts t
  match a with
  | ⟨0, _⟩ => show win0_5.index t (0 : Fin 2) * 512 + 1 * (y 0).val = (y 0).val; omega
  | ⟨1, _⟩ => show win0_5.index t (1 : Fin 2) * 2048 + 1 * (y 1).val = (y 1).val; omega

theorem recW_whole (c : Dev nD) (t : Fin cfg0.N) : (iblk m c 6 t : S1024x2048.Idx → EReal) = recWArr m c := by
  funext y
  show recWArr m c (((cfg0.win 6).blk t).view.emb y) = recWArr m c y
  refine congrArg _ (funext fun a => Fin.ext ?_)
  have hf := idx_facts t
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem hidW_whole (c : Dev nD) (t : Fin cfg0.N) : (iblk m c 7 t : S2048x2048.Idx → EReal) = hidWArr m c := by
  funext y
  show hidWArr m c (((cfg0.win 7).blk t).view.emb y) = hidWArr m c y
  refine congrArg _ (funext fun a => Fin.ext ?_)
  have hf := idx_facts t
  match a with
  | ⟨0, _⟩ => show win0_7.index t (0 : Fin 2) * 2048 + 1 * (y 0).val = (y 0).val; omega
  | ⟨1, _⟩ => show win0_7.index t (1 : Fin 2) * 2048 + 1 * (y 1).val = (y 1).val; omega

theorem hidBias_whole (c : Dev nD) (t : Fin cfg0.N) : (iblk m c 8 t : S1x2048.Idx → EReal) = hidBiasArr m c := by
  funext y
  show hidBiasArr m c (((cfg0.win 8).blk t).view.emb y) = hidBiasArr m c y
  refine congrArg _ (funext fun a => Fin.ext ?_)
  have hf := idx_facts t
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem outW_whole (c : Dev nD) (t : Fin cfg0.N) : (iblk m c 9 t : S2048x1024.Idx → EReal) = outWArr m c := by
  funext y
  show outWArr m c (((cfg0.win 9).blk t).view.emb y) = outWArr m c y
  refine congrArg _ (funext fun a => Fin.ext ?_)
  have hf := idx_facts t
  match a with
  | ⟨0, _⟩ => show win0_9.index t (0 : Fin 2) * 2048 + 1 * (y 0).val = (y 0).val; omega
  | ⟨1, _⟩ => show win0_9.index t (1 : Fin 2) * 1024 + 1 * (y 1).val = (y 1).val; omega

theorem inBias_whole (c : Dev nD) (t : Fin cfg0.N) : (iblk m c 10 t : S1x2048.Idx → EReal) = inBiasArr m c := by
  funext y
  show inBiasArr m c (((cfg0.win 10).blk t).view.emb y) = inBiasArr m c y
  refine congrArg _ (funext fun a => Fin.ext ?_)
  have hf := idx_facts t
  match a with
  | ⟨0, _⟩ => show win0_10.index t (0 : Fin 2) * 1 + 1 * (y 0).val = (y 0).val; omega
  | ⟨1, _⟩ => show win0_10.index t (1 : Fin 2) * 2048 + 1 * (y 1).val = (y 1).val; omega

theorem candBias_whole (c : Dev nD) (t : Fin cfg0.N) : (iblk m c 11 t : S1x1024.Idx → EReal) = candBiasArr m c := by
  funext y
  show candBiasArr m c (((cfg0.win 11).blk t).view.emb y) = candBiasArr m c y
  refine congrArg _ (funext fun a => Fin.ext ?_)
  have hf := idx_facts t
  match a with
  | ⟨0, _⟩ => show win0_11.index t (0 : Fin 2) * 1 + 1 * (y 0).val = (y 0).val; omega
  | ⟨1, _⟩ => show win0_11.index t (1 : Fin 2) * 1024 + 1 * (y 1).val = (y 1).val; omega

theorem gateW_whole (c : Dev nD) (t : Fin cfg0.N) : (iblk m c 12 t : S512x1024.Idx → EReal) = gateWArr m c := by
  funext y
  show gateWArr m c (((cfg0.win 12).blk t).view.emb y) = gateWArr m c y
  refine congrArg _ (funext fun a => Fin.ext ?_)
  have hf := idx_facts t
  match a with
  | ⟨0, _⟩ => show win0_12.index t (0 : Fin 2) * 512 + 1 * (y 0).val = (y 0).val; omega
  | ⟨1, _⟩ => show win0_12.index t (1 : Fin 2) * 1024 + 1 * (y 1).val = (y 1).val; omega

theorem gateRecW_whole (c : Dev nD) (t : Fin cfg0.N) : (iblk m c 13 t : S1024x1024.Idx → EReal) = gateRecWArr m c := by
  funext y
  show gateRecWArr m c (((cfg0.win 13).blk t).view.emb y) = gateRecWArr m c y
  refine congrArg _ (funext fun a => Fin.ext ?_)
  have hf := idx_facts t
  match a with
  | ⟨0, _⟩ => show win0_13.index t (0 : Fin 2) * 1024 + 1 * (y 0).val = (y 0).val; omega
  | ⟨1, _⟩ => show win0_13.index t (1 : Fin 2) * 1024 + 1 * (y 1).val = (y 1).val; omega

theorem gateBias_whole (c : Dev nD) (t : Fin cfg0.N) : (iblk m c 14 t : S1x1024.Idx → EReal) = gateBiasArr m c := by
  funext y
  show gateBiasArr m c (((cfg0.win 14).blk t).view.emb y) = gateBiasArr m c y
  refine congrArg _ (funext fun a => Fin.ext ?_)
  have hf := idx_facts t
  match a with
  | ⟨0, _⟩ => show win0_14.index t (0 : Fin 2) * 1 + 1 * (y 0).val = (y 0).val; omega
  | ⟨1, _⟩ => show win0_14.index t (1 : Fin 2) * 1024 + 1 * (y 1).val = (y 1).val; omega

theorem timeGate_whole (c : Dev nD) (t : Fin cfg0.N) : (iblk m c 15 t : S1x1024.Idx → EReal) = timeGateArr m c := by
  funext y
  show timeGateArr m c (((cfg0.win 15).blk t).view.emb y) = timeGateArr m c y
  refine congrArg _ (funext fun a => Fin.ext ?_)
  have hf := idx_facts t
  match a with
  | ⟨0, _⟩ => show win0_15.index t (0 : Fin 2) * 1 + 1 * (y 0).val = (y 0).val; omega
  | ⟨1, _⟩ => show win0_15.index t (1 : Fin 2) * 1024 + 1 * (y 1).val = (y 1).val; omega

/-! ## What each point writes back -/

theorem zero_offsets : (![0, 0] : Fin 2 → Nat) = fun _ => 0 := funext fun a => by fin_cases a <;> rfl

/-- The row formula of the blocks at point t, row p, is the row formula of the arrays at row r = 128·t + p:
    each streamed block's row p is its array's row r, each resident block is its array. -/
theorem new_blocks_to_arrays (c : Dev nD) (t : Fin cfg0.N) (p : Fin 128) (q : Fin 1024) (r : Fin 1024)
    (hr : r.val = t.val * 128 + p.val) :
    Cell.newState (row (iblk m c 0 t : S128x512.Idx → EReal) p) (row (iblk m c 3 t : S1x512.Idx → EReal) 0)
        (row (iblk m c 1 t : S128x1024.Idx → EReal) p) (row (iblk m c 2 t : S128x1024.Idx → EReal) p)
        (entries (iblk m c 5 t : S512x2048.Idx → EReal)) (row (iblk m c 10 t : S1x2048.Idx → EReal) 0)
        (entries (iblk m c 6 t : S1024x2048.Idx → EReal)) (entries (iblk m c 7 t : S2048x2048.Idx → EReal))
        (row (iblk m c 8 t : S1x2048.Idx → EReal) 0) (entries (iblk m c 9 t : S2048x1024.Idx → EReal))
        (row (iblk m c 11 t : S1x1024.Idx → EReal) 0) (entries (iblk m c 12 t : S512x1024.Idx → EReal))
        (entries (iblk m c 13 t : S1024x1024.Idx → EReal)) (row (iblk m c 14 t : S1x1024.Idx → EReal) 0)
        (row (iblk m c 15 t : S1x1024.Idx → EReal) 0) q
      = Cell.newState (row (inputsArr m c) r) (row (inMaskArr m c) 0) (row (stateArr m c) r)
        (row (recMaskArr m c) r) (entries (inWArr m c)) (row (inBiasArr m c) 0) (entries (recWArr m c))
        (entries (hidWArr m c)) (row (hidBiasArr m c) 0) (entries (outWArr m c)) (row (candBiasArr m c) 0)
        (entries (gateWArr m c)) (entries (gateRecWArr m c)) (row (gateBiasArr m c) 0) (row (timeGateArr m c) 0) q := by
  rw [inputs_rows m c t p r hr, state_rows m c t p r hr, recMask_rows m c t p r hr, inMask_whole m c t, inW_whole m c t,
    inBias_whole m c t, recW_whole m c t, hidW_whole m c t, hidBias_whole m c t, outW_whole m c t, candBias_whole m c t,
    gateW_whole m c t, gateRecW_whole m c t, gateBias_whole m c t, timeGate_whole m c t]

/-- The same for the output, with the resident output mask. -/
theorem out_blocks_to_arrays (c : Dev nD) (t : Fin cfg0.N) (p : Fin 128) (q : Fin 1024) (r : Fin 1024)
    (hr : r.val = t.val * 128 + p.val) :
    Cell.output (row (iblk m c 0 t : S128x512.Idx → EReal) p) (row (iblk m c 3 t : S1x512.Idx → EReal) 0)
        (row (iblk m c 1 t : S128x1024.Idx → EReal) p) (row (iblk m c 2 t : S128x1024.Idx → EReal) p)
        (entries (iblk m c 5 t : S512x2048.Idx → EReal)) (row (iblk m c 10 t : S1x2048.Idx → EReal) 0)
        (entries (iblk m c 6 t : S1024x2048.Idx → EReal)) (entries (iblk m c 7 t : S2048x2048.Idx → EReal))
        (row (iblk m c 8 t : S1x2048.Idx → EReal) 0) (entries (iblk m c 9 t : S2048x1024.Idx → EReal))
        (row (iblk m c 11 t : S1x1024.Idx → EReal) 0) (entries (iblk m c 12 t : S512x1024.Idx → EReal))
        (entries (iblk m c 13 t : S1024x1024.Idx → EReal)) (row (iblk m c 14 t : S1x1024.Idx → EReal) 0)
        (row (iblk m c 15 t : S1x1024.Idx → EReal) 0) (row (iblk m c 4 t : S1x1024.Idx → EReal) 0) q
      = Cell.output (row (inputsArr m c) r) (row (inMaskArr m c) 0) (row (stateArr m c) r)
        (row (recMaskArr m c) r) (entries (inWArr m c)) (row (inBiasArr m c) 0) (entries (recWArr m c))
        (entries (hidWArr m c)) (row (hidBiasArr m c) 0) (entries (outWArr m c)) (row (candBiasArr m c) 0)
        (entries (gateWArr m c)) (entries (gateRecWArr m c)) (row (gateBiasArr m c) 0) (row (timeGateArr m c) 0) (row (outMaskArr m c) 0) q := by
  rw [inputs_rows m c t p r hr, state_rows m c t p r hr, recMask_rows m c t p r hr, inMask_whole m c t, inW_whole m c t,
    inBias_whole m c t, recW_whole m c t, hidW_whole m c t, hidBias_whole m c t, outW_whole m c t, candBias_whole m c t,
    gateW_whole m c t, gateRecW_whole m c t, gateBias_whole m c t, timeGate_whole m c t, outMask_whole m c t]

/-- What point t writes back to the new-state array is rows 128·t … of `newArr`. -/
theorem new_flushed (c : Dev nD) (t : Fin cfg0.N) :
    (dats m 0 c).flushed 17 t = ((cfg0.win 17).blk t).view.read (Elt Ideal) (newArr m c) := by
  rw [flushed17]
  unfold out0_17
  rw [View.canon_unit_zero zero_offsets]
  simp only [View.ld_unit_zero (S := S128x512) zero_offsets, View.ld_unit_zero (S := S128x1024) zero_offsets,
    View.ld_unit_zero (S := S1x512) zero_offsets, View.ld_unit_zero (S := S512x2048) zero_offsets,
    View.ld_unit_zero (S := S1x2048) zero_offsets, View.ld_unit_zero (S := S1024x2048) zero_offsets,
    View.ld_unit_zero (S := S2048x2048) zero_offsets, View.ld_unit_zero (S := S2048x1024) zero_offsets,
    View.ld_unit_zero (S := S1x1024) zero_offsets, View.ld_unit_zero (S := S512x1024) zero_offsets,
    View.ld_unit_zero (S := S1024x1024) zero_offsets]
  funext y
  obtain ⟨p, q, rfl⟩ : ∃ (p : Fin 128) (q : Fin 1024), y = ix2 p q := ⟨y 0, y 1, eq_ix2 y⟩
  have hf := idx_facts t
  have hrow : ((((cfg0.win 17).blk t).view.emb (ix2 p q)) 0 : Fin 1024).val = t.val * 128 + p.val := by
    show win0_17.index t (0 : Fin 2) * 128 + 1 * p.val = _; omega
  have hcol : ((((cfg0.win 17).blk t).view.emb (ix2 p q)) 1 : Fin 1024) = q := Fin.ext (by
    show win0_17.index t (1 : Fin 2) * 1024 + 1 * q.val = q.val; omega)
  refine (Entry.new_entry (iblk m c 0 t) (iblk m c 1 t) (iblk m c 2 t) (iblk m c 3 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) p q).trans ?_
  refine (new_blocks_to_arrays m c t p q _ hrow).trans ?_
  show _ = newArr m c (((cfg0.win 17).blk t).view.emb (ix2 p q))
  unfold newArr
  rw [hcol]

/-- What point t writes back to the output array is rows 128·t … of `outArr`. -/
theorem out_flushed (c : Dev nD) (t : Fin cfg0.N) :
    (dats m 0 c).flushed 16 t = ((cfg0.win 16).blk t).view.read (Elt Ideal) (outArr m c) := by
  rw [flushed16]
  unfold out0_16
  rw [View.canon_unit_zero zero_offsets]
  simp only [View.ld_unit_zero (S := S128x512) zero_offsets, View.ld_unit_zero (S := S128x1024) zero_offsets,
    View.ld_unit_zero (S := S1x512) zero_offsets, View.ld_unit_zero (S := S512x2048) zero_offsets,
    View.ld_unit_zero (S := S1x2048) zero_offsets, View.ld_unit_zero (S := S1024x2048) zero_offsets,
    View.ld_unit_zero (S := S2048x2048) zero_offsets, View.ld_unit_zero (S := S2048x1024) zero_offsets,
    View.ld_unit_zero (S := S1x1024) zero_offsets, View.ld_unit_zero (S := S512x1024) zero_offsets,
    View.ld_unit_zero (S := S1024x1024) zero_offsets]
  funext y
  obtain ⟨p, q, rfl⟩ : ∃ (p : Fin 128) (q : Fin 1024), y = ix2 p q := ⟨y 0, y 1, eq_ix2 y⟩
  have hf := idx_facts t
  have hrow : ((((cfg0.win 16).blk t).view.emb (ix2 p q)) 0 : Fin 1024).val = t.val * 128 + p.val := by
    show win0_16.index t (0 : Fin 2) * 128 + 1 * p.val = _; omega
  have hcol : ((((cfg0.win 16).blk t).view.emb (ix2 p q)) 1 : Fin 1024) = q := Fin.ext (by
    show win0_16.index t (1 : Fin 2) * 1024 + 1 * q.val = q.val; omega)
  refine (Entry.out_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) p q).trans ?_
  refine (out_blocks_to_arrays m c t p q _ hrow).trans ?_
  show _ = outArr m c (((cfg0.win 16).blk t).view.emb (ix2 p q))
  unfold outArr
  rw [hcol]

/-! ## The eight row-blocks cover each result array -/

/-- Every index of the new-state array lies in the block of the point that handles its row. -/
theorem new_cover (i : S1024x1024.Idx) :
    ∃ t : Fin cfg0.N, (cfg0.win 17).flush t = true ∧ i ∈ ((cfg0.win 17).blk t).view.set := by
  have hi0 : (i 0).val < 1024 := (i 0).isLt
  have hi1 : (i 1).val < 1024 := (i 1).isLt
  obtain ⟨t, ht⟩ := point_of_block ⟨(i 0).val / 128, by omega⟩
  have ht' : t.val = (i 0).val / 128 := ht
  have hf := idx_facts t
  refine ⟨t, flush0_17 t, ?_⟩
  show i ∈ ((View.whole main_v23_1).slice (win0_17.rect t)).set
  rw [View.set_slice_whole, Rect.mem_set_unit]
  intro a
  match a with
  | ⟨0, _⟩ =>
    show win0_17.index t (0 : Fin 2) * 128 ≤ (i 0).val ∧ (i 0).val < win0_17.index t (0 : Fin 2) * 128 + 128
    omega
  | ⟨1, _⟩ =>
    show win0_17.index t (1 : Fin 2) * 1024 ≤ (i 1).val ∧ (i 1).val < win0_17.index t (1 : Fin 2) * 1024 + 1024
    omega

/-- Every index of the output array lies in the block of the point that handles its row. -/
theorem out_cover (i : S1024x1024.Idx) :
    ∃ t : Fin cfg0.N, (cfg0.win 16).flush t = true ∧ i ∈ ((cfg0.win 16).blk t).view.set := by
  have hi0 : (i 0).val < 1024 := (i 0).isLt
  have hi1 : (i 1).val < 1024 := (i 1).isLt
  obtain ⟨t, ht⟩ := point_of_block ⟨(i 0).val / 128, by omega⟩
  have ht' : t.val = (i 0).val / 128 := ht
  have hf := idx_facts t
  refine ⟨t, flush0_16 t, ?_⟩
  show i ∈ ((View.whole main_v23_0).slice (win0_16.rect t)).set
  rw [View.set_slice_whole, Rect.mem_set_unit]
  intro a
  match a with
  | ⟨0, _⟩ =>
    show win0_16.index t (0 : Fin 2) * 128 ≤ (i 0).val ∧ (i 0).val < win0_16.index t (0 : Fin 2) * 128 + 128
    omega
  | ⟨1, _⟩ =>
    show win0_16.index t (1 : Fin 2) * 1024 ≤ (i 1).val ∧ (i 1).val < win0_16.index t (1 : Fin 2) * 1024 + 1024
    omega

/-! ## The result arrays after the run -/

/-- The new-state array ends as the cell's row formula at every row. -/
theorem new_final (c : Dev nD) : (dats m 0 c).arrAt 17 cfg0.N = newArr m c :=
  (dats m 0 c).arrAt_eq_of_cover 17 (newArr m c) (fun t _ => new_flushed m c t) new_cover

/-- The output array ends as the masked new state at every row. -/
theorem out_final (c : Dev nD) : (dats m 0 c).arrAt 16 cfg0.N = outArr m c :=
  (dats m 0 c).arrAt_eq_of_cover 16 (outArr m c) (fun t _ => out_flushed m c t) out_cover

end Cert.KernelIdeal.Arrays

end
-- ==== Proof.CellArrays.lean ====
/-
  The cell on whole arrays: the new state and the output as functions of the argument arrays.

  Row r of each result is the row formula (CellSpec) of row r of the inputs, of the previous state and of the
  recurrent mask, with the masks and biases read as vectors and the weights as matrices.  The time gate is a
  1×1024 row given from outside: both programs compute it from t and time_kernel by the same operations.
-/
import proofs.«170932_j4294967296464_1_alg».proof.Proof.CellSpec
import proofs.«170932_j4294967296464_1_alg».proof.Proof.LibRowOps

noncomputable section

namespace Cert.Cell

open Idealize.ShloMosaic Idealize.ShloMosaic.ValueIdx Cert.Lib.RowOps

/-- An a×b array of extended reals. -/
abbrev Mat (a b : Nat) : Type := (⟨2, ![a, b]⟩ : Shape).Idx → EReal
/-- A length-n array of extended reals. -/
abbrev Vect (n : Nat) : Type := (⟨1, ![n]⟩ : Shape).Idx → EReal

/-- The new state, [1024, 1024]. -/
def newArray (x : Mat 1024 512) (xm : Vect 512) (h hm : Mat 1024 1024) (W : Mat 512 2048) (b : Vect 2048)
    (R : Mat 1024 2048) (B : Mat 2048 2048) (bb : Vect 2048) (O : Mat 2048 1024) (rb : Vect 1024)
    (G : Mat 512 1024) (GR : Mat 1024 1024) (gb : Vect 1024) (d : Mat 1 1024) : Mat 1024 1024 := fun i =>
  newState (row x (i 0 : Fin 1024)) (vec xm) (row h (i 0 : Fin 1024)) (row hm (i 0 : Fin 1024)) (entries W) (vec b)
    (entries R) (entries B) (vec bb) (entries O) (vec rb) (entries G) (entries GR) (vec gb) (row d 0) (i 1 : Fin 1024)

/-- The output, [1024, 1024]: the new state under the output mask. -/
def outArray (x : Mat 1024 512) (xm : Vect 512) (h hm : Mat 1024 1024) (W : Mat 512 2048) (b : Vect 2048)
    (R : Mat 1024 2048) (B : Mat 2048 2048) (bb : Vect 2048) (O : Mat 2048 1024) (rb : Vect 1024)
    (G : Mat 512 1024) (GR : Mat 1024 1024) (gb : Vect 1024) (d : Mat 1 1024) (om : Vect 1024) : Mat 1024 1024 := fun i =>
  output (row x (i 0 : Fin 1024)) (vec xm) (row h (i 0 : Fin 1024)) (row hm (i 0 : Fin 1024)) (entries W) (vec b)
    (entries R) (entries B) (vec bb) (entries O) (vec rb) (entries G) (entries GR) (vec gb) (row d 0) (vec om)
    (i 1 : Fin 1024)

end Cert.Cell

end
-- ==== Proof.KernelStaged.lean ====
/-
  The arrays the kernel's windows stage, as functions of the program's arguments, at the ideal instance.

  Before the call the program converts eight arguments to bfloat16 — the identity on extended reals —, reshapes
  six length-n vectors to 1×n rows — entry (0, j) of the row is entry j of the vector —, and computes the time
  gate exp(−|2·t·1| · exp(time_kernel)) by the same host operations, in the same order, as the reference does.
  So the kernel's two result arrays are the cell's whole-array functions (CellArrays) of its arguments.
-/
import proofs.«170932_j4294967296464_1_alg».proof.Proof.KernelArrays
import proofs.«170932_j4294967296464_1_alg».proof.Proof.CellArrays
import proofs.«170932_j4294967296464_1_alg».proof.Proof.Gen.ReferenceIdeal.Read
import Idealize.ShloMosaic.Lib.StableHlo.Run

noncomputable section

namespace Cert.KernelIdeal.Staged

open Cert.KernelIdeal Cert.KernelIdeal.Gen Cert.KernelIdeal.Arrays
open Idealize.ShloMosaic Idealize.ShloMosaic.TcCoe Idealize.SL.Sem Idealize.ShloMosaic.ValueIdx Idealize.ShloMosaic.StableHlo
open Cert.Lib.RowOps

variable (m : (ℓ : Loc nD τ sig) → Buf (Elt Ideal) ℓ)

/-! The program's arguments on core c. -/
abbrev argInputs (c : Dev nD) : S1024x512.Idx → EReal := m ((c : Thread nD τ).loc main_arg0)
abbrev argState (c : Dev nD) : S1024x1024.Idx → EReal := m ((c : Thread nD τ).loc main_arg1)
abbrev argTime (c : Dev nD) : S_.Idx → EReal := m ((c : Thread nD τ).loc main_arg2)
abbrev argInW (c : Dev nD) : S512x2048.Idx → EReal := m ((c : Thread nD τ).loc main_arg3)
abbrev argRecW (c : Dev nD) : S1024x2048.Idx → EReal := m ((c : Thread nD τ).loc main_arg4)
abbrev argHidW (c : Dev nD) : S2048x2048.Idx → EReal := m ((c : Thread nD τ).loc main_arg5)
abbrev argHidBias (c : Dev nD) : S2048.Idx → EReal := m ((c : Thread nD τ).loc main_arg6)
abbrev argOutW (c : Dev nD) : S2048x1024.Idx → EReal := m ((c : Thread nD τ).loc main_arg7)
abbrev argTimeKernel (c : Dev nD) : S1x1024.Idx → EReal := m ((c : Thread nD τ).loc main_arg8)
abbrev argInBias (c : Dev nD) : S2048.Idx → EReal := m ((c : Thread nD τ).loc main_arg9)
abbrev argCandBias (c : Dev nD) : S1024.Idx → EReal := m ((c : Thread nD τ).loc main_arg10)
abbrev argGateW (c : Dev nD) : S512x1024.Idx → EReal := m ((c : Thread nD τ).loc main_arg11)
abbrev argGateRecW (c : Dev nD) : S1024x1024.Idx → EReal := m ((c : Thread nD τ).loc main_arg12)
abbrev argGateBias (c : Dev nD) : S1024.Idx → EReal := m ((c : Thread nD τ).loc main_arg13)
abbrev argInMask (c : Dev nD) : S512.Idx → EReal := m ((c : Thread nD τ).loc main_arg14)
abbrev argRecMask (c : Dev nD) : S1024x1024.Idx → EReal := m ((c : Thread nD τ).loc main_arg15)
abbrev argOutMask (c : Dev nD) : S1024.Idx → EReal := m ((c : Thread nD τ).loc main_arg16)

/-! ## Changes of float format only -/

theorem inputs_staged (c : Dev nD) : inputsArr m c = argInputs m c := by
  show (V m c main_v8 : S1024x512.Idx → EReal) = _
  dsimp only [V, hostOps0]; after_results; rfl

theorem state_staged (c : Dev nD) : stateArr m c = argState m c := V_main_arg1 m c

theorem recMask_staged (c : Dev nD) : recMaskArr m c = argRecMask m c := by
  show (V m c main_v15 : S1024x1024.Idx → EReal) = _
  dsimp only [V, hostOps0]; after_results; rfl

theorem inW_staged (c : Dev nD) : inWArr m c = argInW m c := by
  show (V m c main_v9 : S512x2048.Idx → EReal) = _
  dsimp only [V, hostOps0]; after_results; rfl

theorem recW_staged (c : Dev nD) : recWArr m c = argRecW m c := by
  show (V m c main_v10 : S1024x2048.Idx → EReal) = _
  dsimp only [V, hostOps0]; after_results; rfl

theorem hidW_staged (c : Dev nD) : hidWArr m c = argHidW m c := by
  show (V m c main_v11 : S2048x2048.Idx → EReal) = _
  dsimp only [V, hostOps0]; after_results; rfl

theorem outW_staged (c : Dev nD) : outWArr m c = argOutW m c := by
  show (V m c main_v12 : S2048x1024.Idx → EReal) = _
  dsimp only [V, hostOps0]; after_results; rfl

theorem gateW_staged (c : Dev nD) : gateWArr m c = argGateW m c := by
  show (V m c main_v13 : S512x1024.Idx → EReal) = _
  dsimp only [V, hostOps0]; after_results; rfl

theorem gateRecW_staged (c : Dev nD) : gateRecWArr m c = argGateRecW m c := by
  show (V m c main_v14 : S1024x1024.Idx → EReal) = _
  dsimp only [V, hostOps0]; after_results; rfl

/-! ## Vectors staged as 1×n rows -/

/-- The staged input mask (reshaped, then converted) is the mask argument, entry by entry. -/
theorem inMask_staged (c : Dev nD) : row (inMaskArr m c) 0 = vec (argInMask m c) := by
  have e : (V m c main_v17 : S1x512.Idx → EReal) = shapeCast S1x512 (argInMask m c) shapeCasts_S512_S1x512 := by
    dsimp only [V, hostOps0]; after_results; rfl
  funext k
  show (V m c main_v17 : S1x512.Idx → EReal) (ix2 (0 : Fin 1) k) = _
  rw [e]
  exact shapeCast_vec_row_apply (argInMask m c) shapeCasts_S512_S1x512 0 k

theorem outMask_staged (c : Dev nD) : row (outMaskArr m c) 0 = vec (argOutMask m c) := by
  have e : (V m c main_v18 : S1x1024.Idx → EReal) = shapeCast S1x1024 (argOutMask m c) shapeCasts_S1024_S1x1024 := by
    dsimp only [V, hostOps0]; after_results; rfl
  funext k
  show (V m c main_v18 : S1x1024.Idx → EReal) (ix2 (0 : Fin 1) k) = _
  rw [e]
  exact shapeCast_vec_row_apply (argOutMask m c) shapeCasts_S1024_S1x1024 0 k

theorem inBias_staged (c : Dev nD) : row (inBiasArr m c) 0 = vec (argInBias m c) := by
  have e : (V m c main_v19 : S1x2048.Idx → EReal) = shapeCast S1x2048 (argInBias m c) shapeCasts_S2048_S1x2048 := by
    dsimp only [V, hostOps0]; after_results; rfl
  funext k
  show (V m c main_v19 : S1x2048.Idx → EReal) (ix2 (0 : Fin 1) k) = _
  rw [e]
  exact shapeCast_vec_row_apply (argInBias m c) shapeCasts_S2048_S1x2048 0 k

theorem hidBias_staged (c : Dev nD) : row (hidBiasArr m c) 0 = vec (argHidBias m c) := by
  have e : (V m c main_v20 : S1x2048.Idx → EReal) = shapeCast S1x2048 (argHidBias m c) shapeCasts_S2048_S1x2048 := by
    dsimp only [V, hostOps0]; after_results; rfl
  funext k
  show (V m c main_v20 : S1x2048.Idx → EReal) (ix2 (0 : Fin 1) k) = _
  rw [e]
  exact shapeCast_vec_row_apply (argHidBias m c) shapeCasts_S2048_S1x2048 0 k

theorem candBias_staged (c : Dev nD) : row (candBiasArr m c) 0 = vec (argCandBias m c) := by
  have e : (V m c main_v21 : S1x1024.Idx → EReal) = shapeCast S1x1024 (argCandBias m c) shapeCasts_S1024_S1x1024 := by
    dsimp only [V, hostOps0]; after_results; rfl
  funext k
  show (V m c main_v21 : S1x1024.Idx → EReal) (ix2 (0 : Fin 1) k) = _
  rw [e]
  exact shapeCast_vec_row_apply (argCandBias m c) shapeCasts_S1024_S1x1024 0 k

theorem gateBias_staged (c : Dev nD) : row (gateBiasArr m c) 0 = vec (argGateBias m c) := by
  have e : (V m c main_v22 : S1x1024.Idx → EReal) = shapeCast S1x1024 (argGateBias m c) shapeCasts_S1024_S1x1024 := by
    dsimp only [V, hostOps0]; after_results; rfl
  funext k
  show (V m c main_v22 : S1x1024.Idx → EReal) (ix2 (0 : Fin 1) k) = _
  rw [e]
  exact shapeCast_vec_row_apply (argGateBias m c) shapeCasts_S1024_S1x1024 0 k

/-! ## The time gate -/

/-- The staged time gate is the reference's own time-gate stage of the same two arguments. -/
theorem timeGate_staged (c : Dev nD) :
    timeGateArr m c = Cert.ReferenceIdeal.Read.val_main_v35 (F := Ideal) (argTime m c) (argTimeKernel m c) := by
  show (V m c main_v7 : S1x1024.Idx → EReal) = _
  dsimp only [V, hostOps0]; after_results; rfl

/-! ## The two result arrays as functions of the arguments -/

/-- The kernel's new-state array is the cell's, of its arguments. -/
theorem newArr_eq (c : Dev nD) :
    newArr m c = Cell.newArray (argInputs m c) (argInMask m c) (argState m c) (argRecMask m c) (argInW m c)
      (argInBias m c) (argRecW m c) (argHidW m c) (argHidBias m c) (argOutW m c) (argCandBias m c) (argGateW m c)
      (argGateRecW m c) (argGateBias m c)
      (Cert.ReferenceIdeal.Read.val_main_v35 (F := Ideal) (argTime m c) (argTimeKernel m c)) := by
  funext i
  unfold newArr Cell.newArray
  rw [inputs_staged, state_staged, recMask_staged, inW_staged, recW_staged, hidW_staged, outW_staged, gateW_staged,
    gateRecW_staged, inMask_staged, inBias_staged, hidBias_staged, candBias_staged, gateBias_staged, timeGate_staged]

/-- The kernel's output array is the cell's, of its arguments. -/
theorem outArr_eq (c : Dev nD) :
    outArr m c = Cell.outArray (argInputs m c) (argInMask m c) (argState m c) (argRecMask m c) (argInW m c)
      (argInBias m c) (argRecW m c) (argHidW m c) (argHidBias m c) (argOutW m c) (argCandBias m c) (argGateW m c)
      (argGateRecW m c) (argGateBias m c)
      (Cert.ReferenceIdeal.Read.val_main_v35 (F := Ideal) (argTime m c) (argTimeKernel m c)) (argOutMask m c) := by
  funext i
  unfold outArr Cell.outArray
  rw [inputs_staged, state_staged, recMask_staged, inW_staged, recW_staged, hidW_staged, outW_staged, gateW_staged,
    gateRecW_staged, inMask_staged, inBias_staged, hidBias_staged, candBias_staged, gateBias_staged, timeGate_staged,
    outMask_staged]

end Cert.KernelIdeal.Staged

end
-- ==== Proof.RefArrays.lean ====
/-
  The reference's two results as the cell's whole-array functions, at the ideal instance.

  Read at entry (r, u), every plain matrix product of the reference is the sum over the shared axis, a bias or
  mask broadcast (vector → 1×n row → all rows) is the vector at its column, a scalar constant broadcast is the
  constant, and the remaining operations act entry by entry.  jax spells the gate's sigmoid as 1 / (1 + e^(−z))
  with both ones the float word of 1.0: that is the logistic function.  The time-gate stage is kept as one term.
-/
import proofs.«170932_j4294967296464_1_alg».proof.Proof.Gen.ReferenceIdeal.Read
import proofs.«170932_j4294967296464_1_alg».proof.Proof.CellArrays
import proofs.«170932_j4294967296464_1_alg».proof.Proof.LibPlainDot

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib Cert.Lib.RowOps

/-! Each printed record of dimension numbers is the plain M×K by K×N product's. -/
theorem dims_x_W : dot_S1024x512_S512x2048_S1024x2048_1_0_0_1_n_n = DotDims.plain 1024 512 2048 := rfl
theorem dims_h_R : dot_S1024x1024_S1024x2048_S1024x2048_1_0_0_1_n_n = DotDims.plain 1024 1024 2048 := rfl
theorem dims_a_B : dot_S1024x2048_S2048x2048_S1024x2048_1_0_0_1_n_n = DotDims.plain 1024 2048 2048 := rfl
theorem dims_a_O : dot_S1024x2048_S2048x1024_S1024x1024_1_0_0_1_n_n = DotDims.plain 1024 2048 1024 := rfl
theorem dims_x_G : dot_S1024x512_S512x1024_S1024x1024_1_0_0_1_n_n = DotDims.plain 1024 512 1024 := rfl
theorem dims_h_GR : dot_S1024x1024_S1024x1024_S1024x1024_1_0_0_1_n_n = DotDims.plain 1024 1024 1024 := rfl

variable (x0 : S1024x512.Idx → EReal) (x1 : S1024x1024.Idx → EReal) (x2 : S_.Idx → EReal) (x3 : S512x2048.Idx → EReal)
  (x4 : S1024x2048.Idx → EReal) (x5 : S2048x2048.Idx → EReal) (x6 : S2048.Idx → EReal) (x7 : S2048x1024.Idx → EReal)
  (x8 : S1x1024.Idx → EReal) (x9 : S2048.Idx → EReal) (x10 : S1024.Idx → EReal) (x11 : S512x1024.Idx → EReal)
  (x12 : S1024x1024.Idx → EReal) (x13 : S1024.Idx → EReal) (x14 : S512.Idx → EReal) (x15 : S1024x1024.Idx → EReal)
  (x16 : S1024.Idx → EReal)

/-! ## The masks, biases and time gate at an entry -/

/-- The input mask broadcast over the rows, at (r, k): the mask at k. -/
theorem inMask_entry (r : Fin 1024) (k : Fin 512) : val_main_v3 (F := Ideal) x14 (ix2 r k) = x14 (ix1 k) := by
  unfold val_main_v3 val_main_v2
  rw [broadcastInDim_rows_apply, broadcastInDim_vec_apply]

/-- The first bias broadcast over the rows, at (r, j): the bias at j. -/
theorem inBias_entry (r : Fin 1024) (j : Fin 2048) : val_main_v8 (F := Ideal) x9 (ix2 r j) = x9 (ix1 j) := by
  unfold val_main_v8 val_main_v7
  rw [broadcastInDim_rows_apply, broadcastInDim_vec_apply]

/-- The second bias broadcast over the rows, at (r, j): the bias at j. -/
theorem hidBias_entry (r : Fin 1024) (j : Fin 2048) : val_main_v19 (F := Ideal) x6 (ix2 r j) = x6 (ix1 j) := by
  unfold val_main_v19 val_main_v18
  rw [broadcastInDim_rows_apply, broadcastInDim_vec_apply]

/-- The candidate's bias broadcast over the rows, at (r, u): the bias at u. -/
theorem candBias_entry (r u : Fin 1024) : val_main_v28 (F := Ideal) x10 (ix2 r u) = x10 (ix1 u) := by
  unfold val_main_v28 val_main_v27
  rw [broadcastInDim_rows_apply, broadcastInDim_vec_apply]

/-- The gate's bias broadcast over the rows, at (r, u): the bias at u. -/
theorem gateBias_entry (r u : Fin 1024) : val_main_v40 (F := Ideal) x13 (ix2 r u) = x13 (ix1 u) := by
  unfold val_main_v40 val_main_v39
  rw [broadcastInDim_rows_apply, broadcastInDim_vec_apply]

/-- The output mask broadcast over the rows, at (r, u): the mask at u. -/
theorem outMask_entry (r u : Fin 1024) : val_main_v58 (F := Ideal) x16 (ix2 r u) = x16 (ix1 u) := by
  unfold val_main_v58 val_main_v57
  rw [broadcastInDim_rows_apply, broadcastInDim_vec_apply]

/-- One minus the time gate, broadcast over the rows, at (r, u): one minus the time gate at u. -/
theorem decay_entry (r u : Fin 1024) :
    val_main_v54 (F := Ideal) x2 x8 (ix2 r u)
      = Ideal.ofBits .f32 0x3F800000#32 - val_main_v35 (F := Ideal) x2 x8 (ix2 (0 : Fin 1) u) := by
  unfold val_main_v54
  rw [broadcastInDim_rows_apply]
  unfold val_main_v53 val_main_v52 val_main_cst_8
  rw [subf_apply, broadcastInDim_scalar]
  rfl

/-! ## The two results -/

/-- The reference's new state is the cell's new-state array of its arguments. -/
theorem new_eq :
    val_main_v56 (F := Ideal) x0 x1 x2 x3 x4 x5 x6 x7 x8 x9 x10 x11 x12 x13 x14 x15
      = Cell.newArray x0 x14 x1 x15 x3 x9 x4 x5 x6 x7 x10 x11 x12 x13 (val_main_v35 (F := Ideal) x2 x8) := by
  funext i
  obtain ⟨r, u, rfl⟩ : ∃ (r u : Fin 1024), i = ix2 r u := ⟨i 0, i 1, eq_ix2 i⟩
  simp only [val_main_v56, val_main_v55, val_main_v51,
    val_main_v50, val_main_v48, val_main_v47, val_main_v45,
    val_main_v43, val_main_v42, val_main_v41, val_main_v38,
    val_main_v37, val_main_v36, val_main_v29, val_main_v26, val_main_v25,
    val_main_v23, val_main_v22, val_main_v20,
    val_main_v17, val_main_v16, val_main_v14, val_main_v13,
    val_main_v11, val_main_v10, val_main_v9, val_main_v6, val_main_v5, val_main_v4,
    val_main_v12_apply, val_main_cst_1_apply, val_main_v15_apply, val_main_cst_2_apply, val_main_v21_apply,
    val_main_cst_3_apply, val_main_v24_apply, val_main_cst_4_apply, val_main_v44_apply, val_main_cst_5_apply,
    val_main_v46_apply, val_main_cst_6_apply, val_main_v49_apply, val_main_cst_7_apply, Ideal.ofBits_def,
    addf_apply, mulf_apply, subf_apply, host_divf_apply, host_exp_apply, host_negf_apply,
    host_tanh_apply,
    dims_x_W, dims_h_R, dims_a_B, dims_a_O, dims_x_G, dims_h_GR, PlainDot.dotGeneral_apply,
    inMask_entry, inBias_entry, hidBias_entry, candBias_entry, gateBias_entry, decay_entry, Cell.logistic_of_words]
  rfl

/-- The reference's output is the cell's output array of its arguments. -/
theorem out_eq :
    val_main_v59 (F := Ideal) x0 x1 x2 x3 x4 x5 x6 x7 x8 x9 x10 x11 x12 x13 x14 x15 x16
      = Cell.outArray x0 x14 x1 x15 x3 x9 x4 x5 x6 x7 x10 x11 x12 x13 (val_main_v35 (F := Ideal) x2 x8) x16 := by
  funext i
  obtain ⟨r, u, rfl⟩ : ∃ (r u : Fin 1024), i = ix2 r u := ⟨i 0, i 1, eq_ix2 i⟩
  simp only [val_main_v59, mulf_apply, outMask_entry, new_eq]
  rfl

end Cert.ReferenceIdeal.RefValue

end
-- ==== Proof.lean ====
/-
  A gated recurrent cell with a two-layer hidden network, computed by one kernel over eight blocks of 128 batch
  rows with bfloat16 matrix products, against the same cell written with whole-array operations in float32.

  Over the extended reals the two programs are one function of their seventeen arguments.  Row r of the new
  state is
      new u = h u · gate u + (cand u · (1 − gate u)) · (1 − d u),       out u = new u · om u,
  where, with s z = 1.7159 · tanh (0.6666667 · z),
      a1   = s ((x ∘ xm) · W + b + (h ∘ hm) · R),    a2 = s (a1 · B + bb),    cand = a2 · O + rb,
      gate = logistic (x · G + h · GR + gb),          d  = exp (−|2 t| · exp time_kernel)
  (x, h, hm: row r of the inputs, the previous state, the recurrent mask).  The kernel's changes of float
  format are the identity there; each of its matrix products into a zero accumulator, and each of the
  reference's, is the plain sum over the shared axis, taken in the same order of the summands' factors; the
  kernel's logistic is the reference's 1 / (1 + e^(−z)); both spell the same float words for the two factors of
  s and for the ones; and both compute the time gate d by the same operations.  No law of arithmetic beyond
  these readings is used, so the inputs' finiteness is never needed.

  The kernel's block structure: point t of the grid reads rows 128·t … of the three streamed arrays and the
  whole of the thirteen resident ones, and writes rows 128·t … of the two results; the eight row-blocks cover
  the 1024 rows (KernelArrays).  What is staged is the arguments up to format, reshaped vectors, and the time
  gate (KernelStaged).  The reference's results are read entry by entry (RefArrays).

  The three frames are the generated frame certificates of the two kernels and the reference's generated run
  with its results dropped; the idealization rewrote nothing, so `preserves` is trivial.
-/
import proofs.«170932_j4294967296464_1_alg».proof.Defs
import proofs.«170932_j4294967296464_1_alg».proof.Proof.Gen.Kernel
import proofs.«170932_j4294967296464_1_alg».proof.Proof.Gen.Kernel.Skeleton
import proofs.«170932_j4294967296464_1_alg».proof.Proof.Gen.Kernel.Launch
import proofs.«170932_j4294967296464_1_alg».proof.Proof.Gen.Kernel.Points
import proofs.«170932_j4294967296464_1_alg».proof.Proof.Gen.Kernel.Frame
import proofs.«170932_j4294967296464_1_alg».proof.Proof.Gen.KernelIdeal
import proofs.«170932_j4294967296464_1_alg».proof.Proof.Gen.KernelIdeal.Skeleton
import proofs.«170932_j4294967296464_1_alg».proof.Proof.Gen.KernelIdeal.Launch
import proofs.«170932_j4294967296464_1_alg».proof.Proof.Gen.KernelIdeal.Points
import proofs.«170932_j4294967296464_1_alg».proof.Proof.Gen.KernelIdeal.Frame
import proofs.«170932_j4294967296464_1_alg».proof.Proof.Gen.ReferenceIdeal
import proofs.«170932_j4294967296464_1_alg».proof.Proof.Gen.Pre_finite_inputs
import proofs.«170932_j4294967296464_1_alg».proof.Proof.Gen.KernelIdeal.Value
import proofs.«170932_j4294967296464_1_alg».proof.Proof.Gen.ReferenceIdeal.Run
import proofs.«170932_j4294967296464_1_alg».proof.Proof.Gen.ReferenceIdeal.Read
import proofs.«170932_j4294967296464_1_alg».proof.Proof.KernelStaged
import proofs.«170932_j4294967296464_1_alg».proof.Proof.RefArrays
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From arguments that agree, the idealized kernel and the idealized reference end with the same output and the
    same new state: both are the cell's whole-array functions of the arguments.  The kernel's run is its generated
    blockwise run with the two result arrays named (KernelArrays); the reference's is its generated run. -/
theorem algebraic : Cert.algebraic_KernelIdeal_ReferenceIdeal := by
  intro m ρ m' ρ' _ hagree
  refine ⟨fun c => Cert.KernelIdeal.Arrays.outArr m c, fun c => Cert.KernelIdeal.Arrays.newArr m c, ?_, ?_⟩
  · exact (θ_run Cert.KernelIdeal.defs _ _).mono
      (fun r h c => ⟨(h c).1.trans (Cert.KernelIdeal.Arrays.out_final m c),
        (h c).2.1.trans (Cert.KernelIdeal.Arrays.new_final m c), (h c).2.2⟩)
      (Cert.KernelIdeal.Value.run_blocks (F := Ideal) m ρ)
  · refine (θ_run Cert.ReferenceIdeal.defs _ _).mono (fun r h c => ⟨?_, ?_, (h c).2.2⟩)
      (Cert.ReferenceIdeal.Value.run (F := Ideal) m' ρ')
    · beta_reduce
      obtain ⟨e0, e1, e2, e3, e4, e5, e6, e7, e8, e9, e10, e11, e12, e13, e14, e15, e16⟩ := hagree c
      rw [(h c).1, Cert.ReferenceIdeal.Read.val_main_v59_eq, Cert.ReferenceIdeal.RefValue.out_eq,
        Cert.KernelIdeal.Staged.outArr_eq, e0, e1, e2, e3, e4, e5, e6, e7, e8, e9, e10, e11, e12, e13, e14, e15, e16]
    · beta_reduce
      obtain ⟨e0, e1, e2, e3, e4, e5, e6, e7, e8, e9, e10, e11, e12, e13, e14, e15, e16⟩ := hagree c
      rw [(h c).2.1, Cert.ReferenceIdeal.Read.val_main_v56_eq, Cert.ReferenceIdeal.RefValue.new_eq,
        Cert.KernelIdeal.Staged.newArr_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
